-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S625000 : Shape := ⟨1, ![625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S625000 : S_.BroadcastsInDim S625000 (![] : Fin 0 → Fin S625000.rank)
  reducesTo_S625000_S_d0 : S625000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x625000 32) (main_arg2 : FVec F S625000 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S625000 .f32 := Host.absf main_arg2
  let main_cst_0 : FVec F S_ .f32 := constant S_ .f32 0x7F800000#32
  let main_v5 : FVec F S625000 .f32 := broadcastInDim S625000 ![] bcast_S_S625000 main_cst_0
  let main_v6 : IVec S625000 1 := cmpf .olt main_v4 main_v5
  let main_c_1 : IVec S_ 1 := constantI S_ 1 1#1
  let main_v7 : IVec S_ 1 := (fun x v => Host.reduce IntOp.andi x v reducesTo_S625000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x625000 : Shape := ⟨2, ![2, 625000]⟩
abbrev S625000 : Shape := ⟨1, ![625000]⟩
abbrev S128x128 : Shape := ⟨2, ![128, 128]⟩
abbrev S128 : Shape := ⟨1, ![128]⟩
abbrev S1x625000 : Shape := ⟨2, ![1, 625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩

abbrev nBuf : Space → Nat
  | .hbm => 55
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S625000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x625000, .i32⟩
  | .hbm, ⟨8, _⟩ => ⟨S625000, .i32⟩
  | .hbm, ⟨9, _⟩ => ⟨S1x625000, .i32⟩
  | .hbm, ⟨10, _⟩ => ⟨S625000, .i32⟩
  | .hbm, ⟨11, _⟩ => ⟨S_, .i32⟩
  | .hbm, ⟨12, _⟩ => ⟨S625000, .i32⟩
  | .hbm, ⟨13, _⟩ => ⟨S625000, .i1⟩
  | .hbm, ⟨14, _⟩ => ⟨S_, .i32⟩
  | .hbm, ⟨15, _⟩ => ⟨S625000, .i32⟩
  | .hbm, ⟨16, _⟩ => ⟨S625000, .i32⟩
  | .hbm, ⟨17, _⟩ => ⟨S625000, .i32⟩
  | .hbm, ⟨18, _⟩ => ⟨S625000x1, .i32⟩
  | .hbm, ⟨19, _⟩ => ⟨S625000x128, .f32⟩
  | .hbm, ⟨20, _⟩ => ⟨S625000x1, .f32⟩
  | .hbm, ⟨21, _⟩ => ⟨S625000x128, .f32⟩
  | .hbm, ⟨22, _⟩ => ⟨S625000x128, .f32⟩
  | .hbm, ⟨23, _⟩ => ⟨S_, .f32⟩
  | .hbm, ⟨24, _⟩ => ⟨S100000x128, .f32⟩
  | .hbm, ⟨25, _⟩ => ⟨S625000x1, .i32⟩
  | .hbm, ⟨26, _⟩ => ⟨S100000x128, .f32⟩
  | .hbm, ⟨27, _⟩ => ⟨S128x128, .f32⟩
  | .hbm, ⟨28, _⟩ => ⟨S128x128, .bf16⟩
  | .hbm, ⟨29, _⟩ => ⟨S128x128, .f32⟩
  | .hbm, ⟨30, _⟩ => ⟨S128x128, .bf16⟩
  | .hbm, ⟨31, _⟩ => ⟨S1x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S625000, .i32⟩
  | .hbm, ⟨37, _⟩ => ⟨S625000, .i1⟩
  | .hbm, ⟨38, _⟩ => ⟨S_, .i32⟩
  | .hbm, ⟨39, _⟩ => ⟨S625000, .i32⟩
  | .hbm, ⟨40, _⟩ => ⟨S625000, .i32⟩
  | .hbm, ⟨41, _⟩ => ⟨S625000, .i32⟩
  | .hbm, ⟨42, _⟩ => ⟨S625000x1, .i32⟩
  | .hbm, ⟨43, _⟩ => ⟨S625000x128, .f32⟩
  | .hbm, ⟨44, _⟩ => ⟨S_, .i32⟩
  | .hbm, ⟨45, _⟩ => ⟨S625000, .i32⟩
  | .hbm, ⟨46, _⟩ => ⟨S625000, .i1⟩
  | .hbm, ⟨47, _⟩ => ⟨S_, .i32⟩
  | .hbm, ⟨48, _⟩ => ⟨S625000, .i32⟩
  | .hbm, ⟨49, _⟩ => ⟨S625000, .i32⟩
  | .hbm, ⟨50, _⟩ => ⟨S625000, .i32⟩
  | .hbm, ⟨51, _⟩ => ⟨S625000x1, .i32⟩
  | .hbm, ⟨52, _⟩ => ⟨S625000x128, .f32⟩
  | .hbm, ⟨53, _⟩ => ⟨S625000x1, .f32⟩
  | .hbm, ⟨54, _⟩ => ⟨S625000, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S625000x1_S625000 : S625000x1.ShapeCasts S625000
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S625000x128.size a
  hwx1_0 : ∀ i : grid1.Coords, EltTy.bits .f32 = 32 ∨ (Rect.block (s := S625000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S625000x128.size a
  hwx1_1 : ∀ i : grid1.Coords, EltTy.bits .f32 = 32 ∨ (Rect.block (s := S625000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S625000x1.size a
  hwx1_2 : ∀ i : grid1.Coords, EltTy.bits .f32 = 32 ∨ (Rect.block (s := S625000x1) S5000x1.size (cc1_transform_2 i) (hinb1_2 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S625000 : Shape := ⟨1, ![625000]⟩
abbrev S128x128 : Shape := ⟨2, ![128, 128]⟩
abbrev S128 : Shape := ⟨1, ![128]⟩
abbrev S1x625000 : Shape := ⟨2, ![1, 625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S625000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x625000, .i32⟩
  | .hbm, ⟨8, _⟩ => ⟨S625000, .i32⟩
  | .hbm, ⟨9, _⟩ => ⟨S1x625000, .i32⟩
  | .hbm, ⟨10, _⟩ => ⟨S625000, .i32⟩
  | .hbm, ⟨11, _⟩ => ⟨S_, .i32⟩
  | .hbm, ⟨12, _⟩ => ⟨S625000, .i32⟩
  | .hbm, ⟨13, _⟩ => ⟨S625000, .i1⟩
  | .hbm, ⟨14, _⟩ => ⟨S_, .i32⟩
  | .hbm, ⟨15, _⟩ => ⟨S625000, .i32⟩
  | .hbm, ⟨16, _⟩ => ⟨S625000, .i32⟩
  | .hbm, ⟨17, _⟩ => ⟨S625000, .i32⟩
  | .hbm, ⟨18, _⟩ => ⟨S625000x1, .i32⟩
  | .hbm, ⟨19, _⟩ => ⟨S625000x128, .f32⟩
  | .hbm, ⟨20, _⟩ => ⟨S625000x1, .f32⟩
  | .hbm, ⟨21, _⟩ => ⟨S625000x128, .f32⟩
  | .hbm, ⟨22, _⟩ => ⟨S625000x128, .f32⟩
  | .hbm, ⟨23, _⟩ => ⟨S_, .f32⟩
  | .hbm, ⟨24, _⟩ => ⟨S100000x128, .f32⟩
  | .hbm, ⟨25, _⟩ => ⟨S625000x1, .i32⟩
  | .hbm, ⟨26, _⟩ => ⟨S100000x128, .f32⟩
  | .hbm, ⟨27, _⟩ => ⟨S128x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .i1⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S625000, .i32⟩
  | .hbm, ⟨56, _⟩ => ⟨S625000, .i1⟩
  | .hbm, ⟨57, _⟩ => ⟨S_, .i32⟩
  | .hbm, ⟨58, _⟩ => ⟨S625000, .i32⟩
  | .hbm, ⟨59, _⟩ => ⟨S625000, .i32⟩
  | .hbm, ⟨60, _⟩ => ⟨S625000, .i32⟩
  | .hbm, ⟨61, _⟩ => ⟨S625000x1, .i32⟩
  | .hbm, ⟨62, _⟩ => ⟨S625000x128, .f32⟩
  | .hbm, ⟨63, _⟩ => ⟨S_, .i32⟩
  | .hbm, ⟨64, _⟩ => ⟨S625000, .i32⟩
  | .hbm, ⟨65, _⟩ => ⟨S625000, .i1⟩
  | .hbm, ⟨66, _⟩ => ⟨S_, .i32⟩
  | .hbm, ⟨67, _⟩ => ⟨S625000, .i32⟩
  | .hbm, ⟨68, _⟩ => ⟨S625000, .i32⟩
  | .hbm, ⟨69, _⟩ => ⟨S625000, .i32⟩
  | .hbm, ⟨70, _⟩ => ⟨S625000x1, .i32⟩
  | .hbm, ⟨71, _⟩ => ⟨S625000x128, .f32⟩
  | .hbm, ⟨72, _⟩ => ⟨S625000x128, .f32⟩
  | .hbm, ⟨73, _⟩ => ⟨S_, .f32⟩
  | .hbm, ⟨74, _⟩ => ⟨S625000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_v27 : Ref sig .tc := ⟨.hbm, 50, rfl⟩
abbrev main_cst_1 : Ref sig .tc := ⟨.hbm, 51, rfl⟩
abbrev main_v28 : Ref sig .tc := ⟨.hbm, 52, rfl⟩
abbrev main_v29 : Ref sig .tc := ⟨.hbm, 53, rfl⟩
abbrev main_c_2 : Ref sig .tc := ⟨.hbm, 54, rfl⟩
abbrev main_v30 : Ref sig .tc := ⟨.hbm, 55, rfl⟩
abbrev main_v31 : Ref sig .tc := ⟨.hbm, 56, rfl⟩
abbrev main_c_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_4 : Ref sig .tc := ⟨.hbm, 63, rfl⟩
abbrev main_v37 : Ref sig .tc := ⟨.hbm, 64, rfl⟩
abbrev main_v38 : Ref sig .tc := ⟨.hbm, 65, rfl⟩
abbrev main_c_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S625000x128_S625000_d1 : S625000x128.ReducesTo [1] S625000
  h_S_ : 0 < S_.numel
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.EncodePayload.lean ====
/-
  The encode kernel's two payloads read at one index of the 5000 × 128 block.

  Per grid point the body holds a block `x` of 5000 rows of the aggregated node features, two 128 × 128 weight
  matrices (already transposed on the host, so that rows are input channels) and two bias rows. Over the extended
  reals a change of float format is the identity and the matrix unit's product into a zero accumulator is the plain
  sum over the contracted channel, so at row `r` and output channel `j`:

    location head :  (∑ k, x[r, k] · wl[k, j]) + bl[0, j]
    scale head    :  softplusEps ((∑ k, x[r, k] · ws[k, j]) + bs[0, j])

  where `softplusEps y = max y 0 + log1p (exp (−|y − 0|)) + ε`: the numerically stable spelling of
  `log (1 + exp y)` that the source's `softplus` unfolds to, plus the source's `ε = 1e-10` (kept as its word, never
  evaluated). The spelling guards the case `y − 0 ≠ y − 0` (a NaN test) with a select; on the extended reals no
  element differs from itself, so the guarded branch is never taken.
-/
import proofs.«166524_j51496657879185_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Encode

open Cert.KernelIdeal Cert.KernelIdeal.Gen Idealize.ShloMosaic Idealize.ShloMosaic.TcCoe Idealize.ShloMosaic.ValueIdx

/-! ## The matrix product of a block, as a sum over the contracted channel -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `i 0` of the block at input channel `k`. -/
abbrev rowAt (i : S5000x128.Idx) (k : Fin 128) : S5000x128.Idx := fun a => match a with
  | ⟨0, _⟩ => ⟨(i 0).val, (i 0).isLt⟩
  | ⟨1, _⟩ => ⟨k.val, k.isLt⟩
/-- Input channel `k`, output channel `i 1` of a transposed weight matrix. -/
abbrev chanAt (i : S5000x128.Idx) (k : Fin 128) : S128x128.Idx := fun a => match a with
  | ⟨0, _⟩ => ⟨k.val, k.isLt⟩
  | ⟨1, _⟩ => ⟨(i 1).val, (i 1).isLt⟩
/-- Output channel `i 1` of a bias row. -/
abbrev biasAt (i : S5000x128.Idx) : S1x128.Idx := fun a => match a with
  | ⟨0, _⟩ => ⟨0, Nat.one_pos⟩
  | ⟨1, _⟩ => ⟨(i 1).val, (i 1).isLt⟩

/-- The block's product with a weight matrix, into the zero accumulator, at an index: the sum over the 128 input
    channels of row entry times weight entry. -/
theorem matmul_block_apply (l : FVec Ideal S5000x128 .bf16) (r : FVec Ideal S128x128 .bf16) (i : S5000x128.Idx) :
    matmul dot_S5000x128_S128x128_S5000x128_1_0_0_1_n_n none l r (constant S5000x128 .f32 0x00000000#32) i
      = ∑ k : Fin 128, l (rowAt i k) * r (chanAt i k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowAt i k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx i ((ValueIdx.contrEquiv1 dot_S5000x128_S128x128_S5000x128_1_0_0_1_n_n 128 rfl rfl).symm k) = chanAt i k := funext fun a => Fin.ext (by
    match a with
    | ⟨0, _⟩ => exact (rhs_axis0 _ _).trans hk
    | ⟨1, _⟩ => exact rhs_axis1 _ _)
  rw [el, er]

/-- A bias row broadcast down the block's rows reads its own channel. -/
theorem bias_block_apply (b : FVec Ideal S1x128 .f32) (i : S5000x128.Idx) :
    broadcastTo S5000x128 b broadcasts_S1x128_S5000x128 i = b (biasAt i) :=
  broadcastTo_apply b broadcasts_S1x128_S5000x128 i (biasAt i) (fun a => match a with
    | ⟨0, _⟩ => by show 0 = if (1 : Nat) = 1 then 0 else _; rw [if_pos rfl]
    | ⟨1, _⟩ => by show (i 1).val = if (128 : Nat) = 1 then 0 else (i 1).val; rw [if_neg (by decide)])

/-! ## The linear image of a block -/

/-- One row's linear image: `(∑ k, x[r, k] · w[k, j]) + b[0, j]`. -/
def linearAt (x : Vec Ideal S5000x128 .f32) (w : Vec Ideal S128x128 .bf16) (b : Vec Ideal S1x128 .f32) (i : S5000x128.Idx) : EReal :=
  (∑ k : Fin 128, x (rowAt i k) * w (chanAt i k)) + b (biasAt i)

/-- The same as the body computes it: the block, narrowed in format, times the weights into zero, plus the bias row
    broadcast down the rows. -/
def linVec (x : Vec Ideal S5000x128 .f32) (w : Vec Ideal S128x128 .bf16) (b : Vec Ideal S1x128 .f32) : FVec Ideal S5000x128 .f32 :=
  addf (matmul (F := Ideal) (φ₁ := .bf16) (φ₂ := .bf16) dot_S5000x128_S128x128_S5000x128_1_0_0_1_n_n none (truncf .bf16 (x : FVec Ideal S5000x128 .f32) bitsLt_bf16_f32) (w : FVec Ideal S128x128 .bf16)
      (constant (F := Ideal) S5000x128 .f32 0x00000000#32))
    (broadcastTo S5000x128 (b : FVec Ideal S1x128 .f32) broadcasts_S1x128_S5000x128)

theorem linVec_apply (x : Vec Ideal S5000x128 .f32) (w : Vec Ideal S128x128 .bf16) (b : Vec Ideal S1x128 .f32) (i : S5000x128.Idx) :
    linVec x w b i = linearAt x w b i := by
  unfold linVec linearAt
  show matmul (F := Ideal) (φ₁ := .bf16) (φ₂ := .bf16) dot_S5000x128_S128x128_S5000x128_1_0_0_1_n_n none _ _ (constant (F := Ideal) S5000x128 .f32 0x00000000#32) i
    + broadcastTo S5000x128 (b : FVec Ideal S1x128 .f32) broadcasts_S1x128_S5000x128 i = _
  rw [matmul_block_apply, bias_block_apply]
  rfl

/-! ## The location head -/

theorem locPayload_eq (x : Vec Ideal S5000x128 .f32) (w : Vec Ideal S128x128 .bf16) (b : Vec Ideal S1x128 .f32) :
    k0_pay2 x w b = linVec x w b := by
  unfold k0_pay2 k0_pay1 linVec
  dsimp only
  rw [shapeCast_self, shapeCast_self, shapeCast_self]

/-! ## The scale head -/

/-- `max y 0 + log1p (exp (−|y − 0|)) + ε`, the zero and `ε` as the printed words. -/
def softplusEps (y : EReal) : EReal :=
  (max y (Ideal.ofBits .f32 0x00000000#32)
      + Ideal.log1p (Ideal.exp (-(max (y - Ideal.ofBits .f32 0x00000000#32) (-(y - Ideal.ofBits .f32 0x00000000#32))))))
    + Ideal.ofBits .f32 0x2EDBE6FF#32

/-- No extended real differs from itself: both spellings of the NaN test are false. -/
theorem cmp_one_self (d : EReal) : Ideal.cmp .one d d = 0#1 := by simp [Ideal.cmp]
theorem cmp_une_self (d : EReal) : Ideal.cmp .une d d = 0#1 := by simp [Ideal.cmp]

/-- The body's stable softplus of a vector, then `+ ε`, read at an index: the guard is never taken, and the body's
    `0 − |d|` is `−|d|`. -/
theorem softplus_chain_apply (y : FVec Ideal S5000x128 .f32) (i : S5000x128.Idx) :
    addf (select (cmpf .one (subf y (broadcast S5000x128 (Scalar.ofBits (F := Ideal) .f32 0x00000000#32))) (subf y (broadcast S5000x128 (Scalar.ofBits (F := Ideal) .f32 0x00000000#32))))
            (addf y (broadcast S5000x128 (Scalar.ofBits (F := Ideal) .f32 0x00000000#32)))
            (addf (maximumf y (broadcast S5000x128 (Scalar.ofBits (F := Ideal) .f32 0x00000000#32))) (log1p (exp (subf (broadcast S5000x128 (Scalar.ofBits (F := Ideal) .f32 0x00000000#32)) (absf (subf y (broadcast S5000x128 (Scalar.ofBits (F := Ideal) .f32 0x00000000#32)))))))))
         (broadcast S5000x128 (Scalar.ofBits (F := Ideal) .f32 0x2EDBE6FF#32)) i = softplusEps (y i) := by
  show Scalar.select (Ideal.cmp .one (y i - Ideal.ofBits .f32 0x00000000#32) (y i - Ideal.ofBits .f32 0x00000000#32))
        (y i + Ideal.ofBits .f32 0x00000000#32)
        (max (y i) (Ideal.ofBits .f32 0x00000000#32) + Ideal.log1p (Ideal.exp (Ideal.ofBits .f32 0x00000000#32
          - max (y i - Ideal.ofBits .f32 0x00000000#32) (-(y i - Ideal.ofBits .f32 0x00000000#32)))))
      + Ideal.ofBits .f32 0x2EDBE6FF#32 = _
  rw [cmp_one_self, select_zero]
  unfold softplusEps
  rw [Ideal.ofBits_zero_f32, zero_sub]

theorem stdPayload_apply (x : Vec Ideal S5000x128 .f32) (w : Vec Ideal S128x128 .bf16) (b : Vec Ideal S1x128 .f32) (i : S5000x128.Idx) :
    k0_pay3 x w b i = softplusEps (linearAt x w b i) := by
  rw [← linVec_apply]
  unfold k0_pay3 k0_pay1 linVec
  dsimp only
  rw [shapeCast_self, shapeCast_self, shapeCast_self]
  exact softplus_chain_apply _ i

end Cert.KernelIdeal.Encode

end
-- ==== Proof.EncodeArray.lean ====
/-
  The encode region's two output arrays after its 20 grid points, as whole-array functions of the contents the region
  is entered with.

  Point `t` reads rows `5000 t … 5000 t + 4999` of the aggregated features (window 0), the whole of both weight matrices
  and bias rows (windows 1 to 4, block index 0 at every point), and writes the same rows of both outputs (windows 5
  and 6). So what point `t` writes back is block `t` of ONE function of the entry contents, row by row

    location :  (∑ k, ptr[n, k] · wl[k, j]) + bl[0, j]          scale :  softplusEps ((∑ k, ptr[n, k] · ws[k, j]) + bs[0, j])

  and the 20 blocks tile the 100000 rows (row `n` lies in block `n / 5000`), so each array ends holding that function.
-/
import proofs.«166524_j51496657879185_1_alg».proof.Proof.Gen.KernelIdeal.Frame
import proofs.«166524_j51496657879185_1_alg».proof.Proof.EncodePayload

set_option maxRecDepth 16384

noncomputable section

namespace Cert.KernelIdeal.Encode

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The region's arrays and blocks, by their literal types -/

abbrev ptrArr (c : Dev nD) : Vec Ideal S100000x128 .f32 := V c main_v16
abbrev wLocArr (c : Dev nD) : Vec Ideal S128x128 .bf16 := V c main_v18
abbrev bLocArr (c : Dev nD) : Vec Ideal S1x128 .f32 := V c main_v21
abbrev wStdArr (c : Dev nD) : Vec Ideal S128x128 .bf16 := V c main_v20
abbrev bStdArr (c : Dev nD) : Vec Ideal S1x128 .f32 := V c main_v22

abbrev ptrBlk (c : Dev nD) (t : Fin cfg0.N) : Vec Ideal S5000x128 .f32 := iblk0 V c 0 t
abbrev wLocBlk (c : Dev nD) (t : Fin cfg0.N) : Vec Ideal S128x128 .bf16 := iblk0 V c 1 t
abbrev bLocBlk (c : Dev nD) (t : Fin cfg0.N) : Vec Ideal S1x128 .f32 := iblk0 V c 2 t
abbrev wStdBlk (c : Dev nD) (t : Fin cfg0.N) : Vec Ideal S128x128 .bf16 := iblk0 V c 3 t
abbrev bStdBlk (c : Dev nD) (t : Fin cfg0.N) : Vec Ideal S1x128 .f32 := iblk0 V c 4 t

/-! ## The whole-array functions -/

/-- Row `i 0` of the feature array at input channel `k`. -/
abbrev nodeRow (i : S100000x128.Idx) (k : Fin 128) : S100000x128.Idx := fun a => match a with
  | ⟨0, _⟩ => ⟨(i 0).val, (i 0).isLt⟩
  | ⟨1, _⟩ => ⟨k.val, k.isLt⟩
abbrev nodeChan (i : S100000x128.Idx) (k : Fin 128) : S128x128.Idx := fun a => match a with
  | ⟨0, _⟩ => ⟨k.val, k.isLt⟩
  | ⟨1, _⟩ => ⟨(i 1).val, (i 1).isLt⟩
abbrev nodeBias (i : S100000x128.Idx) : S1x128.Idx := fun a => match a with
  | ⟨0, _⟩ => ⟨0, Nat.one_pos⟩
  | ⟨1, _⟩ => ⟨(i 1).val, (i 1).isLt⟩

/-- Every node's linear image: `(∑ k, P[n, k] · w[k, j]) + b[0, j]`. -/
def linearArr (P : Vec Ideal S100000x128 .f32) (w : Vec Ideal S128x128 .bf16) (b : Vec Ideal S1x128 .f32) : Vec Ideal S100000x128 .f32 :=
  fun i => (∑ k : Fin 128, P (nodeRow i k) * w (nodeChan i k)) + b (nodeBias i)

/-- Every node's scale: the stable softplus of its linear image, plus `ε`. -/
def scaleArr (P : Vec Ideal S100000x128 .f32) (w : Vec Ideal S128x128 .bf16) (b : Vec Ideal S1x128 .f32) : Vec Ideal S100000x128 .f32 :=
  fun i => softplusEps (linearArr P w b i)

/-! ## The printed index maps, decided once over the grid -/

theorem hz : (![0, 0] : Fin 2 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## What a point reads: each input block is its array read where the output block's rows are -/

/-- A feature block's row `r` is row `5000 t + r` of the array: the row the output block's row `r` is. -/
theorem ptr_read (c : Dev nD) (t : Fin cfg0.N) (j : S5000x128.Idx) (k : Fin 128) (i : S100000x128.Idx)
    (hi : i = ((cfg0.win 5).blk t).view.emb j) :
    ptrBlk V c t (rowAt j k) = ptrArr V c (nodeRow i k) := by
  subst hi
  obtain ⟨e00, e01, -, -, -, -, -, -, -, -, e50, e51, -, -⟩ := idx_facts t
  show V c main_v16 (((cfg0.win 0).blk t).view.emb (rowAt j k)) = V c main_v16 (nodeRow (((cfg0.win 5).blk t).view.emb j) k)
  refine congrArg (V c main_v16) (funext fun a => Fin.ext ?_)
  match a with
  | ⟨0, _⟩ => show win0_0.index t (0 : Fin 2) * 5000 + 1 * (j 0).val = win0_5.index t (0 : Fin 2) * 5000 + 1 * (j 0).val; omega
  | ⟨1, _⟩ => show win0_0.index t (1 : Fin 2) * 128 + 1 * k.val = k.val; omega

theorem wLoc_read (c : Dev nD) (t : Fin cfg0.N) (j : S5000x128.Idx) (k : Fin 128) (i : S100000x128.Idx)
    (hi : i = ((cfg0.win 5).blk t).view.emb j) :
    wLocBlk V c t (chanAt j k) = wLocArr V c (nodeChan i k) := by
  subst hi
  obtain ⟨-, -, e10, e11, -, -, -, -, -, -, e50, e51, -, -⟩ := idx_facts t
  show V c main_v18 (((cfg0.win 1).blk t).view.emb (chanAt j k)) = V c main_v18 (nodeChan (((cfg0.win 5).blk t).view.emb j) k)
  refine congrArg (V c main_v18) (funext fun a => Fin.ext ?_)
  match a with
  | ⟨0, _⟩ => show win0_1.index t (0 : Fin 2) * 128 + 1 * k.val = k.val; omega
  | ⟨1, _⟩ => show win0_1.index t (1 : Fin 2) * 128 + 1 * (j 1).val = win0_5.index t (1 : Fin 2) * 128 + 1 * (j 1).val; omega

theorem bLoc_read (c : Dev nD) (t : Fin cfg0.N) (j : S5000x128.Idx) (i : S100000x128.Idx)
    (hi : i = ((cfg0.win 5).blk t).view.emb j) :
    bLocBlk V c t (biasAt j) = bLocArr V c (nodeBias i) := by
  subst hi
  obtain ⟨-, -, -, -, e20, e21, -, -, -, -, e50, e51, -, -⟩ := idx_facts t
  show V c main_v21 (((cfg0.win 2).blk t).view.emb (biasAt j)) = V c main_v21 (nodeBias (((cfg0.win 5).blk t).view.emb j))
  refine congrArg (V c main_v21) (funext fun a => Fin.ext ?_)
  match a with
  | ⟨0, _⟩ => show win0_2.index t (0 : Fin 2) * 1 + 1 * 0 = 0; omega
  | ⟨1, _⟩ => show win0_2.index t (1 : Fin 2) * 128 + 1 * (j 1).val = win0_5.index t (1 : Fin 2) * 128 + 1 * (j 1).val; omega

/-- A point's linear image of its blocks is the array's linear image at the output block's index. -/
theorem linear_read (c : Dev nD) (t : Fin cfg0.N) (j : S5000x128.Idx) :
    linearAt (ptrBlk V c t) (wLocBlk V c t) (bLocBlk V c t) j
      = linearArr (ptrArr V c) (wLocArr V c) (bLocArr V c) (((cfg0.win 5).blk t).view.emb j) := by
  unfold linearAt linearArr
  rw [bLoc_read V c t j _ rfl]
  refine congrArg (· + _) (Finset.sum_congr rfl fun k _ => ?_)
  rw [ptr_read V c t j k _ rfl, wLoc_read V c t j k _ rfl]

/-! ## Window 5: the location head's array -/

/-- What point `t` writes back to the location array is block `t` of the nodes' linear image. -/
theorem loc_flushed (c : Dev nD) (t : Fin cfg0.N) :
    (dat0 V c).flushed 5 t
      = ((cfg0.win 5).blk t).view.read (Elt Ideal) (linearArr (ptrArr V c) (wLocArr V c) (bLocArr V c)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  show k0_pay2 (ptrBlk V c t) (wLocBlk V c t) (bLocBlk V c t) j = linearArr (ptrArr V c) (wLocArr V c) (bLocArr V c) (((cfg0.win 5).blk t).view.emb j)
  rw [locPayload_eq, linVec_apply, linear_read]

/-- An index of the location array is in point `t`'s block iff each coordinate is in the block's range. -/
theorem loc_mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23_0).slice (win0_5.rect t)).set ↔ _
  rw [View.set_slice_whole, Rect.mem_set_unit]
  exact Iff.rfl

/-- Every block of rows is some point's. -/
theorem idx_onto : ∀ q : Fin 20, ∃ t : Fin cfg0.N, t.val = q.val :=
  (by decide +kernel : ∀ q : Fin 20, ∃ t : Fin grid0.N, t.val = q.val)

/-- The 20 blocks tile the location array: row `n` lies in block `n / 5000`. -/
theorem loc_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, e50, e51, -, -⟩ := idx_facts t
  refine ⟨t, flush0_5 t, ?_⟩
  rw [loc_mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE LOCATION ARRAY after the region: every node's linear image of the entry contents. -/
theorem loc_final (c : Dev nD) :
    (dat0 V c).arrAt 5 cfg0.N = linearArr (ptrArr V c) (wLocArr V c) (bLocArr V c) :=
  (dat0 V c).arrAt_eq_of_cover 5 (linearArr (ptrArr V c) (wLocArr V c) (bLocArr V c)) (fun t _ => loc_flushed V c t) loc_cover

/-! ## Window 6: the scale head's array -/

theorem wStd_read (c : Dev nD) (t : Fin cfg0.N) (j : S5000x128.Idx) (k : Fin 128) (i : S100000x128.Idx)
    (hi : i = ((cfg0.win 6).blk t).view.emb j) :
    wStdBlk V c t (chanAt j k) = wStdArr V c (nodeChan i k) := by
  subst hi
  obtain ⟨-, -, -, -, -, -, e30, e31, -, -, -, -, e60, e61⟩ := idx_facts t
  show V c main_v20 (((cfg0.win 3).blk t).view.emb (chanAt j k)) = V c main_v20 (nodeChan (((cfg0.win 6).blk t).view.emb j) k)
  refine congrArg (V c main_v20) (funext fun a => Fin.ext ?_)
  match a with
  | ⟨0, _⟩ => show win0_3.index t (0 : Fin 2) * 128 + 1 * k.val = k.val; omega
  | ⟨1, _⟩ => show win0_3.index t (1 : Fin 2) * 128 + 1 * (j 1).val = win0_6.index t (1 : Fin 2) * 128 + 1 * (j 1).val; omega

theorem bStd_read (c : Dev nD) (t : Fin cfg0.N) (j : S5000x128.Idx) (i : S100000x128.Idx)
    (hi : i = ((cfg0.win 6).blk t).view.emb j) :
    bStdBlk V c t (biasAt j) = bStdArr V c (nodeBias i) := by
  subst hi
  obtain ⟨-, -, -, -, -, -, -, -, e40, e41, -, -, e60, e61⟩ := idx_facts t
  show V c main_v22 (((cfg0.win 4).blk t).view.emb (biasAt j)) = V c main_v22 (nodeBias (((cfg0.win 6).blk t).view.emb j))
  refine congrArg (V c main_v22) (funext fun a => Fin.ext ?_)
  match a with
  | ⟨0, _⟩ => show win0_4.index t (0 : Fin 2) * 1 + 1 * 0 = 0; omega
  | ⟨1, _⟩ => show win0_4.index t (1 : Fin 2) * 128 + 1 * (j 1).val = win0_6.index t (1 : Fin 2) * 128 + 1 * (j 1).val; omega

/-- The feature block's rows are also the rows of the scale output's block. -/
theorem ptr_read' (c : Dev nD) (t : Fin cfg0.N) (j : S5000x128.Idx) (k : Fin 128) (i : S100000x128.Idx)
    (hi : i = ((cfg0.win 6).blk t).view.emb j) :
    ptrBlk V c t (rowAt j k) = ptrArr V c (nodeRow i k) := by
  subst hi
  obtain ⟨e00, e01, -, -, -, -, -, -, -, -, -, -, e60, e61⟩ := idx_facts t
  show V c main_v16 (((cfg0.win 0).blk t).view.emb (rowAt j k)) = V c main_v16 (nodeRow (((cfg0.win 6).blk t).view.emb j) k)
  refine congrArg (V c main_v16) (funext fun a => Fin.ext ?_)
  match a with
  | ⟨0, _⟩ => show win0_0.index t (0 : Fin 2) * 5000 + 1 * (j 0).val = win0_6.index t (0 : Fin 2) * 5000 + 1 * (j 0).val; omega
  | ⟨1, _⟩ => show win0_0.index t (1 : Fin 2) * 128 + 1 * k.val = k.val; omega

theorem linear_read' (c : Dev nD) (t : Fin cfg0.N) (j : S5000x128.Idx) :
    linearAt (ptrBlk V c t) (wStdBlk V c t) (bStdBlk V c t) j
      = linearArr (ptrArr V c) (wStdArr V c) (bStdArr V c) (((cfg0.win 6).blk t).view.emb j) := by
  unfold linearAt linearArr
  rw [bStd_read V c t j _ rfl]
  refine congrArg (· + _) (Finset.sum_congr rfl fun k _ => ?_)
  rw [ptr_read' V c t j k _ rfl, wStd_read V c t j k _ rfl]

/-- What point `t` writes back to the scale array is block `t` of the nodes' scales. -/
theorem std_flushed (c : Dev nD) (t : Fin cfg0.N) :
    (dat0 V c).flushed 6 t
      = ((cfg0.win 6).blk t).view.read (Elt Ideal) (scaleArr (ptrArr V c) (wStdArr V c) (bStdArr V c)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  funext j
  show k0_pay3 (ptrBlk V c t) (wStdBlk V c t) (bStdBlk V c t) j = scaleArr (ptrArr V c) (wStdArr V c) (bStdArr V c) (((cfg0.win 6).blk t).view.emb j)
  rw [stdPayload_apply, linear_read']
  rfl

theorem std_mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v23_1).slice (win0_6.rect t)).set ↔ _
  rw [View.set_slice_whole, Rect.mem_set_unit]
  exact Iff.rfl

theorem std_cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨-, -, -, -, -, -, -, -, -, -, -, -, e60, e61⟩ := idx_facts t
  refine ⟨t, flush0_6 t, ?_⟩
  rw [std_mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE SCALE ARRAY after the region: every node's stable softplus of its linear image, plus `ε`. -/
theorem std_final (c : Dev nD) :
    (dat0 V c).arrAt 6 cfg0.N = scaleArr (ptrArr V c) (wStdArr V c) (bStdArr V c) :=
  (dat0 V c).arrAt_eq_of_cover 6 (scaleArr (ptrArr V c) (wStdArr V c) (bStdArr V c)) (fun t _ => std_flushed V c t) std_cover

end Cert.KernelIdeal.Encode

end
-- ==== Proof.DecodePayload.lean ====
/-
  The decode kernel's payload read at one row of the 5000 × 1 output block.

  Per grid point the body holds the blocks `a`, `b` of 5000 edges' source and target embeddings, multiplies them entry
  by entry and sums the 128 lanes of each row. Over the extended reals the lane reduction from the zero word is the
  plain sum, so at row `e`:   ∑ l, a[e, l] · b[e, l].
-/
import proofs.«166524_j51496657879185_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Decode

open Cert.KernelIdeal Cert.KernelIdeal.Gen Idealize.ShloMosaic Idealize.ShloMosaic.TcCoe Idealize.ShloMosaic.ValueIdx

/-- Row `i 0` of an embedding block at lane `l`. -/
abbrev laneAt (i : S5000x1.Idx) (l : Fin 128) : S5000x128.Idx := fun a => match a with
  | ⟨0, _⟩ => ⟨(i 0).val, (i 0).isLt⟩
  | ⟨1, _⟩ => ⟨l.val, l.isLt⟩

/-- Row `i 0` of the reduced vector. -/
abbrev rowOf (i : S5000x1.Idx) : S5000.Idx := fun a => match a with
  | ⟨0, _⟩ => ⟨(i 0).val, (i 0).isLt⟩

/-- One edge's dot product. -/
def dotAt (a b : Vec Ideal S5000x128 .f32) (i : S5000x1.Idx) : EReal :=
  ∑ l : Fin 128, a (laneAt i l) * b (laneAt i l)

theorem dotPayload_apply (a b : Vec Ideal S5000x128 .f32) (i : S5000x1.Idx) :
    k1_pay1 a b i = dotAt a b i := by
  unfold k1_pay1 dotAt
  dsimp only
  rw [shapeCast_self, shapeCast_self]
  rw [shapeCast_apply _ shapeCasts_S5000_S5000x1 i (rowOf i) (by
    rw [Shape.rowMajor_val_one, Shape.rowMajor_val_two]
    have h1 : (i 1).val < 1 := (i 1).isLt
    show (i 0).val = (i 0).val * 1 + (i 1).val
    omega)]
  refine (Ideal.multiReduction_add_single (φ := .f32) (mulf (a : FVec Ideal S5000x128 .f32) (b : FVec Ideal S5000x128 .f32)) 0x00000000#32
    reduces_S5000x128_S5000 (.inl rfl) rfl (rowOf i)).trans ?_
  show ∑ l : Fin 128, _ = _
  refine Finset.sum_congr rfl fun l _ => ?_
  have e : reduces_S5000x128_S5000.lift (rowOf i) l = laneAt i l := funext fun c => Fin.ext (by
    match c with
    | ⟨0, _⟩ => rfl
    | ⟨1, _⟩ => rfl)
  rw [e]
  rfl

end Cert.KernelIdeal.Decode

end
-- ==== Proof.DecodeArray.lean ====
/-
  The decode region's output array after its 125 grid points, as a whole-array function of the contents the region is
  entered with.

  Point `t` reads rows `5000 t … 5000 t + 4999` of the two gathered embedding arrays (windows 0 and 1) and writes the
  same rows of the 625000 × 1 output (window 2): each edge's dot product `∑ l, S[e, l] · T[e, l]`. The 125 blocks tile
  the 625000 rows (row `e` lies in block `e / 5000`), so the array ends holding every edge's dot product.
-/
import proofs.«166524_j51496657879185_1_alg».proof.Proof.Gen.KernelIdeal.Frame
import proofs.«166524_j51496657879185_1_alg».proof.Proof.DecodePayload

set_option maxRecDepth 16384

noncomputable section

namespace Cert.KernelIdeal.Decode

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The region's arrays and blocks, by their literal types -/

abbrev srcArr (c : Dev nD) : Vec Ideal S625000x128 .f32 := V c main_v30
abbrev tgtArr (c : Dev nD) : Vec Ideal S625000x128 .f32 := V c main_v37
abbrev srcBlk (c : Dev nD) (t : Fin cfg1.N) : Vec Ideal S5000x128 .f32 := iblk1 V c 0 t
abbrev tgtBlk (c : Dev nD) (t : Fin cfg1.N) : Vec Ideal S5000x128 .f32 := iblk1 V c 1 t

/-- Edge `i 0` of a gathered embedding array at lane `l`. -/
abbrev edgeLane (i : S625000x1.Idx) (l : Fin 128) : S625000x128.Idx := fun a => match a with
  | ⟨0, _⟩ => ⟨(i 0).val, (i 0).isLt⟩
  | ⟨1, _⟩ => ⟨l.val, l.isLt⟩

/-- Every edge's dot product of its two endpoint embeddings. -/
def dotArr (A B : Vec Ideal S625000x128 .f32) : Vec Ideal S625000x1 .f32 :=
  fun i => ∑ l : Fin 128, A (edgeLane i l) * B (edgeLane i l)

/-! ## The printed index maps, decided once over the grid -/

theorem hz : (![0, 0] : Fin 2 → Nat) = fun _ => 0 := funext fun a => by fin_cases a <;> rfl

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-! ## What a point reads -/

theorem src_read (c : Dev nD) (t : Fin cfg1.N) (j : S5000x1.Idx) (l : Fin 128) (i : S625000x1.Idx)
    (hi : i = ((cfg1.win 2).blk t).view.emb j) :
    srcBlk V c t (laneAt j l) = srcArr V c (edgeLane i l) := by
  subst hi
  obtain ⟨e00, e01, -, -, e20, e21⟩ := idx_facts t
  show V c main_v30 (((cfg1.win 0).blk t).view.emb (laneAt j l)) = V c main_v30 (edgeLane (((cfg1.win 2).blk t).view.emb j) l)
  refine congrArg (V c main_v30) (funext fun a => Fin.ext ?_)
  match a with
  | ⟨0, _⟩ => show win1_0.index t (0 : Fin 2) * 5000 + 1 * (j 0).val = win1_2.index t (0 : Fin 2) * 5000 + 1 * (j 0).val; omega
  | ⟨1, _⟩ => show win1_0.index t (1 : Fin 2) * 128 + 1 * l.val = l.val; omega

theorem tgt_read (c : Dev nD) (t : Fin cfg1.N) (j : S5000x1.Idx) (l : Fin 128) (i : S625000x1.Idx)
    (hi : i = ((cfg1.win 2).blk t).view.emb j) :
    tgtBlk V c t (laneAt j l) = tgtArr V c (edgeLane i l) := by
  subst hi
  obtain ⟨-, -, e10, e11, e20, e21⟩ := idx_facts t
  show V c main_v37 (((cfg1.win 1).blk t).view.emb (laneAt j l)) = V c main_v37 (edgeLane (((cfg1.win 2).blk t).view.emb j) l)
  refine congrArg (V c main_v37) (funext fun a => Fin.ext ?_)
  match a with
  | ⟨0, _⟩ => show win1_1.index t (0 : Fin 2) * 5000 + 1 * (j 0).val = win1_2.index t (0 : Fin 2) * 5000 + 1 * (j 0).val; omega
  | ⟨1, _⟩ => show win1_1.index t (1 : Fin 2) * 128 + 1 * l.val = l.val; omega

/-! ## Window 2: the dot products' array -/

/-- What point `t` writes back is block `t` of the edges' dot products. -/
theorem dot_flushed (c : Dev nD) (t : Fin cfg1.N) :
    (dat1 V c).flushed 2 t = ((cfg1.win 2).blk t).view.read (Elt Ideal) (dotArr (srcArr V c) (tgtArr V c)) := by
  show (cfg1.win 2).cut (grid1.coords t) ((dat1 V c).after 2 t) = _
  rw [after1_2]
  unfold out1_2
  rw [View.canon_unit_zero hz]
  simp only [View.ld_unit_zero (S := S5000x128) hz]
  funext j
  show k1_pay1 (srcBlk V c t) (tgtBlk V c t) j = dotArr (srcArr V c) (tgtArr V c) (((cfg1.win 2).blk t).view.emb j)
  rw [dotPayload_apply]
  unfold dotAt dotArr
  refine Finset.sum_congr rfl fun l _ => ?_
  rw [src_read V c t j l _ rfl, tgt_read V c t j l _ rfl]

theorem dot_mem_blk (t : Fin cfg1.N) (i : S625000x1.Idx) :
    i ∈ ((cfg1.win 2).blk t).view.set ↔ ∀ a : Fin 2, win1_2.index t a * S5000x1.size a ≤ (i a).val ∧ (i a).val < win1_2.index t a * S5000x1.size a + S5000x1.size a := by
  show i ∈ ((View.whole main_v38).slice (win1_2.rect t)).set ↔ _
  rw [View.set_slice_whole, Rect.mem_set_unit]
  exact Iff.rfl

/-- Every block of edges is some point's. -/
theorem idx_onto : ∀ q : Fin 125, ∃ t : Fin cfg1.N, t.val = q.val :=
  (by decide +kernel : ∀ q : Fin 125, ∃ t : Fin grid1.N, t.val = q.val)

/-- The 125 blocks tile the output: edge `e` lies in block `e / 5000`. -/
theorem dot_cover (i : S625000x1.Idx) :
    ∃ t : Fin cfg1.N, (cfg1.win 2).flush t = true ∧ i ∈ ((cfg1.win 2).blk t).view.set := by
  have hi0 : (i 0).val < 625000 := (i 0).isLt
  have hi1 : (i 1).val < 1 := (i 1).isLt
  obtain ⟨t, ht⟩ := idx_onto ⟨(i 0).val / 5000, by omega⟩
  have ht' : t.val = (i 0).val / 5000 := ht
  obtain ⟨-, -, -, -, e20, e21⟩ := idx_facts t
  refine ⟨t, flush1_2 t, ?_⟩
  rw [dot_mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 1 ≤ (i 1).val ∧ (i 1).val < win1_2.index t (1 : Fin 2) * 1 + 1; omega

/-- THE OUTPUT ARRAY after the region: every edge's dot product of the entry contents' two embedding arrays. -/
theorem dot_final (c : Dev nD) :
    (dat1 V c).arrAt 2 cfg1.N = dotArr (srcArr V c) (tgtArr V c) :=
  (dat1 V c).arrAt_eq_of_cover 2 (dotArr (srcArr V c) (tgtArr V c)) (fun t _ => dot_flushed V c t) dot_cover

end Cert.KernelIdeal.Decode

end
-- ==== Proof.HostStretch.lean ====
/-
  The host stretches of the kernel's program, read at the buffers the two regions stage and at the three results.

  Before the encode region the host computes, from the arguments, the aggregated node features (a gather of the
  source rows, scaled per edge, scatter-added into the target rows), the two transposed weight matrices narrowed in
  format, and the two bias vectors viewed as rows. These are the same operations, in the same order, as the
  reference's first stages, so each staged buffer IS the reference's stage function of the arguments — the gather,
  the index wrap-around and the scatter-add are carried as they stand and never opened.
  Between the regions the host gathers, for every edge, the source and the target row of the location array the
  encode region has just written. After the decode region it views the 625000 × 1 result as a vector.
  No host operation and no region writes the location or the scale array after the encode region, so the program
  returns them as that region leaves them.
-/
import proofs.«166524_j51496657879185_1_alg».proof.Proof.Gen.KernelIdeal.Frame
import proofs.«166524_j51496657879185_1_alg».proof.Proof.Gen.ReferenceIdeal.Read
import Idealize.ShloMosaic.Lib.StableHlo.Run

set_option maxRecDepth 16384

noncomputable section

namespace Cert.KernelIdeal.Host

open Cert.KernelIdeal Cert.KernelIdeal.Gen Idealize.ShloMosaic Idealize.ShloMosaic.TcCoe
open Idealize.SL Idealize.SL.Sem
open Cert.ReferenceIdeal.Read

variable (m : (ℓ : Loc nD τ sig) → Buf (Elt Ideal) ℓ) (ρ : Dev nD → PrngReg)

/-! ## What the encode region is entered with -/

set_option maxHeartbeats 4000000 in
/-- The aggregated node features are the reference's scatter-add stage of the arguments. -/
theorem entry_ptr (c : Dev nD) :
    V1 m ρ c main_v16 = val_main_v16 (F := Ideal) (m ((c : Thread nD τ).loc main_arg0)) (m ((c : Thread nD τ).loc main_arg1)) (m ((c : Thread nD τ).loc main_arg2)) := by
  show StableHlo.after hostOps0 (W0 m ρ c) (Proc.devRef .tc main_v16) = _
  after_results_simp
  rfl

set_option maxHeartbeats 4000000 in
/-- The location head's weights: the reference's transpose stage, narrowed in format. -/
theorem entry_wloc (c : Dev nD) :
    (V1 m ρ c main_v18 : FVec Ideal S128x128 .bf16)
      = truncf (F := Ideal) .bf16 (val_main_v17 (F := Ideal) (m ((c : Thread nD τ).loc main_arg3)) : FVec Ideal S128x128 .f32) bitsLt_bf16_f32 := by
  show StableHlo.after hostOps0 (W0 m ρ c) (Proc.devRef .tc main_v18) = _
  after_results_simp
  rfl

set_option maxHeartbeats 4000000 in
/-- The location head's bias, viewed as one row. -/
theorem entry_bloc (c : Dev nD) :
    V1 m ρ c main_v21 = shapeCast S1x128 (m ((c : Thread nD τ).loc main_arg4)) shapeCasts_S128_S1x128 := by
  show StableHlo.after hostOps0 (W0 m ρ c) (Proc.devRef .tc main_v21) = _
  after_results_simp
  rfl

set_option maxHeartbeats 4000000 in
theorem entry_wstd (c : Dev nD) :
    (V1 m ρ c main_v20 : FVec Ideal S128x128 .bf16)
      = truncf (F := Ideal) .bf16 (val_main_v22 (F := Ideal) (m ((c : Thread nD τ).loc main_arg5)) : FVec Ideal S128x128 .f32) bitsLt_bf16_f32 := by
  show StableHlo.after hostOps0 (W0 m ρ c) (Proc.devRef .tc main_v20) = _
  after_results_simp
  rfl

set_option maxHeartbeats 4000000 in
theorem entry_bstd (c : Dev nD) :
    V1 m ρ c main_v22 = shapeCast S1x128 (m ((c : Thread nD τ).loc main_arg6)) shapeCasts_S128_S1x128 := by
  show StableHlo.after hostOps0 (W0 m ρ c) (Proc.devRef .tc main_v22) = _
  after_results_simp
  rfl

/-! ## What the encode region leaves, and who keeps it -/

/-- At the encode region's exit the location array is what its write-backs leave. -/
theorem mid_loc (c : Dev nD) : W2 m ρ c (Proc.devRef .tc main_v23_0) = (dat0 (V1 m ρ) c).arrAt 5 cfg0.N :=
  W2_arr m ρ c 5

set_option maxHeartbeats 4000000 in
/-- The first row of edge indices (the sources) and the second (the targets), as the first stretch left them: the
    encode region does not touch them. -/
theorem mid_src (c : Dev nD) :
    W2 m ρ c (Proc.devRef .tc main_v1) = val_main_v1 (F := Ideal) (m ((c : Thread nD τ).loc main_arg1)) := by
  rw [W2_of_ne m ρ c main_v1 (by decide)]
  show StableHlo.after hostOps0 (W0 m ρ c) (Proc.devRef .tc main_v1) = _
  after_results_simp
  rfl

set_option maxHeartbeats 4000000 in
theorem mid_tgt (c : Dev nD) :
    W2 m ρ c (Proc.devRef .tc main_v3) = val_main_v3 (F := Ideal) (m ((c : Thread nD τ).loc main_arg1)) := by
  rw [W2_of_ne m ρ c main_v3 (by decide)]
  show StableHlo.after hostOps0 (W0 m ρ c) (Proc.devRef .tc main_v3) = _
  after_results_simp
  rfl

/-! ## What the decode region is entered with -/

set_option maxHeartbeats 4000000 in
/-- Every edge's source embedding: the gather of the location array at the wrapped source indices. -/
theorem entry_src (c : Dev nD) :
    V3 m ρ c main_v30 = Host.gather gather_S100000x128_S625000x1_S625000x128_1_0_n_n_0_1_1128
      ((dat0 (V1 m ρ) c).arrAt 5 cfg0.N) (val_main_v35 (F := Ideal) (m ((c : Thread nD τ).loc main_arg1))) := by
  show StableHlo.after hostOps1 (W2 m ρ c) (Proc.devRef .tc main_v30) = _
  after_results_simp
  rw [mid_loc, mid_src]
  rfl

set_option maxHeartbeats 4000000 in
/-- Every edge's target embedding: the gather of the location array at the wrapped target indices. -/
theorem entry_tgt (c : Dev nD) :
    V3 m ρ c main_v37 = Host.gather gather_S100000x128_S625000x1_S625000x128_1_0_n_n_0_1_1128
      ((dat0 (V1 m ρ) c).arrAt 5 cfg0.N) (val_main_v42 (F := Ideal) (m ((c : Thread nD τ).loc main_arg1))) := by
  show StableHlo.after hostOps1 (W2 m ρ c) (Proc.devRef .tc main_v37) = _
  after_results_simp
  rw [mid_loc, mid_tgt]
  rfl

/-! ## The three results -/

/-- The program returns the location array as the encode region left it. -/
theorem exit_loc (c : Dev nD) : W5 m ρ c (Proc.devRef .tc main_v23_0) = (dat0 (V1 m ρ) c).arrAt 5 cfg0.N :=
  calc W5 m ρ c (Proc.devRef .tc main_v23_0)
    _ = W4 m ρ c (Proc.devRef .tc main_v23_0) := StableHlo.after_of_forall_not_mem (b := Proc.devRef .tc main_v23_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v23_0) := W4_of_ne m ρ c main_v23_0 (by decide)
    _ = W2 m ρ c (Proc.devRef .tc main_v23_0) := StableHlo.after_of_forall_not_mem (b := Proc.devRef .tc main_v23_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 5 cfg0.N := W2_arr m ρ c 5

/-- The program returns the scale array as the encode region left it. -/
theorem exit_std (c : Dev nD) : W5 m ρ c (Proc.devRef .tc main_v23_1) = (dat0 (V1 m ρ) c).arrAt 6 cfg0.N :=
  calc W5 m ρ c (Proc.devRef .tc main_v23_1)
    _ = W4 m ρ c (Proc.devRef .tc main_v23_1) := StableHlo.after_of_forall_not_mem (b := Proc.devRef .tc main_v23_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v23_1) := W4_of_ne m ρ c main_v23_1 (by decide)
    _ = W2 m ρ c (Proc.devRef .tc main_v23_1) := StableHlo.after_of_forall_not_mem (b := Proc.devRef .tc main_v23_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 6 cfg0.N := W2_arr m ρ c 6

set_option maxHeartbeats 4000000 in
/-- The program returns the decode region's column viewed as a vector. -/
theorem exit_logits (c : Dev nD) :
    W5 m ρ c (Proc.devRef .tc main_v39) = shapeCast S625000 ((dat1 (V3 m ρ) c).arrAt 2 cfg1.N) shapeCasts_S625000x1_S625000 := by
  show StableHlo.after hostOps2 (W4 m ρ c) (Proc.devRef .tc main_v39) = _
  after_results_simp
  exact congrArg (fun x => shapeCast S625000 x shapeCasts_S625000x1_S625000) (W4_arr m ρ c 2)

end Cert.KernelIdeal.Host

end
-- ==== Proof.Bridge.lean ====
/-
  The kernel's three results are the reference's three results, as functions of the arguments.

  Location. The encode region leaves every node's `(∑ k, ptr[n, k] · wl[k, j]) + bl[0, j]` of its entry contents;
  these are the reference's scatter-add stage, its transposed weights (a change of float format is the identity over
  the extended reals) and its bias seen as a row, and the reference's own `dot_general` plus broadcast bias reads, at
  an index, as the same sum over the contracted channel plus the same bias entry. No law beyond reading both sides at
  an index is needed: the sums run over the same 128 channels in the same order.

  Scale. Both sides apply, entry by entry, `max y 0 + log1p (exp (−|y − 0|)) + ε` to the second head's linear image;
  each guards a NaN case (`y − 0 ≠ y − 0`) that no extended real meets, so each select takes its second branch.

  Edge scores. Both sides gather, per edge, the source and target rows of the SAME location array (just shown equal)
  at the SAME wrapped indices, multiply lane by lane and sum the 128 lanes; the reference's sum starts from the zero
  word, the kernel's lane reduction from the zero accumulator, and `0 + s = s`.
-/
import proofs.«166524_j51496657879185_1_alg».proof.Proof.EncodeArray
import proofs.«166524_j51496657879185_1_alg».proof.Proof.DecodeArray
import proofs.«166524_j51496657879185_1_alg».proof.Proof.HostStretch
import proofs.«166524_j51496657879185_1_alg».proof.Proof.RunNamed

set_option maxRecDepth 16384

noncomputable section

namespace Cert.KernelIdeal.Bridge

open Cert.KernelIdeal Cert.KernelIdeal.Gen Idealize.ShloMosaic Idealize.ShloMosaic.TcCoe Idealize.ShloMosaic.ValueIdx
open Idealize.SL Idealize.SL.Sem
open Cert.ReferenceIdeal.Read
open Cert.KernelIdeal.Encode Cert.KernelIdeal.Decode Cert.KernelIdeal.Host

/-! ## The linear image, read the reference's way -/

/-- The nodes' linear image over transposed weights narrowed in format and a bias seen as a row is, at an index, the
    sum over the contracted channel as the reference's index functions spell it, plus the bias entry. -/
theorem linearArr_apply_ref (P : Vec Ideal S100000x128 .f32) (Wt : Vec Ideal S128x128 .f32) (b : Vec Ideal S128 .f32)
    (i : S100000x128.Idx) :
    linearArr P (truncf (F := Ideal) .bf16 (Wt : FVec Ideal S128x128 .f32) bitsLt_bf16_f32) (shapeCast S1x128 b shapeCasts_S128_S1x128) i
      = (∑ k : Fin 128, P (lidx_main_v18 i k) * Wt (ridx_main_v18 i k)) + b (idx_main_v19 (idx_main_v20 i)) := by
  unfold linearArr
  refine congrArg₂ (· + ·) (Finset.sum_congr rfl fun k _ => ?_) ?_
  · rfl
  · exact shapeCast_apply b shapeCasts_S128_S1x128 (nodeBias i) (idx_main_v19 (idx_main_v20 i)) (by
      rw [Shape.rowMajor_val_one, Shape.rowMajor_val_two]
      show (i 1).val = 0 * 128 + (i 1).val
      omega)

/-! ## The reference's scale stage, read at an index -/

/-- The reference's outlined `softplus` plus `ε` is, entry by entry, `softplusEps` of the second head's linear image:
    its NaN guard is never taken. -/
theorem ref_scale_apply (x0 : Vec Ideal S100000x128 .f32) (x1 : IVec S2x625000 32) (x2 : Vec Ideal S625000 .f32)
    (x5 : Vec Ideal S128x128 .f32) (x6 : Vec Ideal S128 .f32) (i : S100000x128.Idx) :
    val_main_v29 (F := Ideal) x0 x1 x2 x5 x6 i = softplusEps (val_main_v26 (F := Ideal) x0 x1 x2 x5 x6 i) := by
  simp only [val_main_v29_apply, val_main_v27_apply, val_main_call0_v4_apply, val_main_call0_v6_apply, val_main_call0_v11_apply,
    val_main_call0_v1_apply, val_main_call0_v10_apply, val_main_call0_v9_apply, val_main_call0_v8_apply, val_main_call0_v7_apply,
    val_main_call0_v3_apply, val_main_v28_apply, val_main_cst_1_apply, val_main_call0_v0_apply, val_main_call0_v2_apply,
    val_main_call0_v5_apply, val_main_call0_cst_apply]
  generalize val_main_v26 (F := Ideal) x0 x1 x2 x5 x6 i = y
  show Scalar.select (Ideal.cmp .une (y - Ideal.ofBits .f32 0x00000000#32) (y - Ideal.ofBits .f32 0x00000000#32))
        (y + Ideal.ofBits .f32 0x00000000#32)
        (max y (Ideal.ofBits .f32 0x00000000#32) + Ideal.log1p (Ideal.exp (-(max (y - Ideal.ofBits .f32 0x00000000#32) (-(y - Ideal.ofBits .f32 0x00000000#32))))))
      + Ideal.ofBits .f32 0x2EDBE6FF#32 = _
  rw [cmp_une_self, select_zero]
  rfl

variable (m : (ℓ : Loc nD τ sig) → Buf (Elt Ideal) ℓ) (ρ : Dev nD → PrngReg)

/-! ## The three results -/

/-- THE LOCATION RESULT is the reference's. -/
theorem loc_eq (c : Dev nD) :
    W5 m ρ c (Proc.devRef .tc main_v23_0) = val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [exit_loc, loc_final]
  funext i
  show linearArr (V1 m ρ c main_v16) (V1 m ρ c main_v18) (V1 m ρ c main_v21) i = _
  rw [entry_ptr, entry_wloc, entry_bloc, linearArr_apply_ref, val_main_v21_apply, val_main_v18_apply, val_main_v20_apply, val_main_v19_apply]
  rfl

/-- THE SCALE RESULT is the reference's. -/
theorem std_eq (c : Dev nD) :
    W5 m ρ c (Proc.devRef .tc main_v23_1) = val_main_v29 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  rw [exit_std, std_final]
  funext i
  show softplusEps (linearArr (V1 m ρ c main_v16) (V1 m ρ c main_v20) (V1 m ρ c main_v22) i) = _
  rw [entry_ptr, entry_wstd, entry_bstd, linearArr_apply_ref, ref_scale_apply, val_main_v26_apply, val_main_v23_apply, val_main_v25_apply, val_main_v24_apply]
  rfl

/-- The decode region's two staged arrays are the reference's two gathers of its location stage. -/
theorem src_eq (c : Dev nD) :
    srcArr (V3 m ρ) c = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show V3 m ρ c main_v30 = _
  rw [entry_src, ← exit_loc, loc_eq]
  rfl
theorem tgt_eq (c : Dev nD) :
    tgtArr (V3 m ρ) c = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show V3 m ρ c main_v37 = _
  rw [entry_tgt, ← exit_loc, loc_eq]
  rfl

/-- Edge `e 0` of the 625000 × 1 column. -/
abbrev colOf (e : S625000.Idx) : S625000x1.Idx := fun a => match a with
  | ⟨0, _⟩ => ⟨(e 0).val, (e 0).isLt⟩
  | ⟨1, _⟩ => ⟨0, Nat.one_pos⟩

/-- THE EDGE SCORES are the reference's. -/
theorem logits_eq (c : Dev nD) :
    W5 m ρ c (Proc.devRef .tc main_v39) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [exit_logits, dot_final, src_eq, tgt_eq]
  funext e
  rw [shapeCast_apply _ shapeCasts_S625000x1_S625000 e (colOf e) (by
    rw [Shape.rowMajor_val_two, Shape.rowMajor_val_one]
    show (e 0).val * 1 + 0 = (e 0).val
    omega)]
  unfold dotArr
  rw [val_main_v45_apply, val_main_cst_6_apply]
  show _ = Ideal.ofBits .f32 0x00000000#32 + _
  rw [Ideal.ofBits_zero_f32, zero_add]
  refine Finset.sum_congr rfl fun l _ => ?_
  rw [val_main_v44_apply]
  rfl

/-! ## The kernel's run, read -/

/-- Every weakly fair execution of the kernel's program ends with its three results at the reference's three stage
    functions of the arguments, the arguments unchanged. -/
theorem run : θ_run defs (onTc (τ := τ) (main (F := Ideal))) ⟨m, fun _ => 0, ρ⟩ (fun r => ∀ c : Dev nD,
      r.2.mem ((c.tc : Thread nD τ).loc main_v23_0) = val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v23_1) = val_main_v29 (F := Ideal) (m ((c : Thread nD τ).loc main_arg0)) (m ((c : Thread nD τ).loc main_arg1)) (m ((c : Thread nD τ).loc main_arg2)) (m ((c : Thread nD τ).loc main_arg5)) (m ((c : Thread nD τ).loc main_arg6))
      ∧ r.2.mem ((c.tc : Thread nD τ).loc main_v39) = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (loc_eq m ρ c), (h c).2.1.trans (std_eq m ρ c),
      (h c).2.2.1.trans (logits_eq m ρ c), (h c).2.2.2⟩)
    (Cert.KernelIdeal.Named.run_named m ρ)

end Cert.KernelIdeal.Bridge

end
-- ==== Proof.lean ====
/-
  A graph auto-encoder's forward pass, certified against its array reference: the kernel's program and the reference
  compute, from the same arguments, the same three results over the extended reals.

  Both programs first aggregate the node features on the host (gather the source rows of the embedding table, scale
  each by its edge's norm, scatter-add into the target rows). The reference then applies two linear heads with one
  matrix product each, a stable softplus plus `ε` on the second, and scores every edge by the dot product of its two
  endpoints' first-head rows. The kernel's program does the heads in one pipelined region over 20 blocks of 5000
  nodes (the weights transposed and narrowed in format on the host, which is the identity over the extended reals)
  and the edge scores in a second region over 125 blocks of 5000 edges, after gathering the endpoint rows on the host.

  The frames of the two printed kernel programs are the generated ones; the reference's is its generated run with the
  results dropped. The idealization rewrote nothing, so there is nothing to preserve. For the value claim the kernel's
  run is read region by region: each region's output array is one whole-array function of what the region is entered
  with (its blocks tile the array), the host stretches between them are the reference's own stage functions, and the
  two sides meet index by index: the same sums over the same 128 channels or lanes, the same softplus spelling whose
  NaN guard no extended real takes, the same gathers of equal arrays at equal indices.
-/
import proofs.«166524_j51496657879185_1_alg».proof.Defs
import proofs.«166524_j51496657879185_1_alg».proof.Proof.Gen.Kernel
import proofs.«166524_j51496657879185_1_alg».proof.Proof.Gen.Kernel.Frame
import proofs.«166524_j51496657879185_1_alg».proof.Proof.Gen.KernelIdeal
import proofs.«166524_j51496657879185_1_alg».proof.Proof.Gen.KernelIdeal.Frame
import proofs.«166524_j51496657879185_1_alg».proof.Proof.Gen.ReferenceIdeal
import proofs.«166524_j51496657879185_1_alg».proof.Proof.Gen.ReferenceIdeal.Run
import proofs.«166524_j51496657879185_1_alg».proof.Proof.Gen.ReferenceIdeal.Read
import proofs.«166524_j51496657879185_1_alg».proof.Proof.Gen.Pre_finite_inputs
import proofs.«166524_j51496657879185_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The two idealized programs, from memories that agree on the arguments, end with equal results: each result of
    the kernel's run is the reference's stage function of the arguments, and so is the reference's run's. -/
theorem algebraic : Cert.algebraic_KernelIdeal_ReferenceIdeal := by
  intro m ρ m' ρ' _ hagree
  refine ⟨_, _, _, Cert.KernelIdeal.Bridge.run m ρ, ?_⟩
  refine (θ_run Cert.ReferenceIdeal.defs _ _).mono (fun r h c => ?_) (Cert.ReferenceIdeal.Value.run (F := Ideal) m' ρ')
  obtain ⟨h0, h1, h2, hargs⟩ := h c
  obtain ⟨a0, a1, a2, a3, a4, a5, a6⟩ := hagree c
  refine ⟨?_, ?_, ?_, hargs⟩
  · rw [h0, Cert.ReferenceIdeal.Read.val_main_v21_eq, a0, a1, a2, a3, a4]
  · rw [h1, Cert.ReferenceIdeal.Read.val_main_v29_eq, a0, a1, a2, a5, a6]
  · rw [h2, Cert.ReferenceIdeal.Read.val_main_v45_eq, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
